-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : FVec F S16384x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  main_v8
-- ==== Kernel.lean ====
abbrev S16384x1000 : Shape := ⟨2, ![16384, 1000]⟩
abbrev S1x1 : Shape := ⟨2, ![1, 1]⟩
abbrev S1024x1000 : Shape := ⟨2, ![1024, 1000]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1x1, .f32⟩
  | .local _ .vmem, ⟨5, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S16384x1000.size a
  hwx0_1 : ∀ i : grid0.Coords, EltTy.bits .f32 = 32 ∨ (Rect.block (s := S16384x1000) S1024x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S_ : Shape := ⟨0, ![]⟩
abbrev S1000 : Shape := ⟨1, ![1000]⟩

abbrev nBuf : Space → Nat
  | .hbm => 25
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S_, .f32⟩
  | .hbm, ⟨3, _⟩ => ⟨S16384x1000, .f32⟩
  | .hbm, ⟨4, _⟩ => ⟨S16384x1000, .i1⟩
  | .hbm, ⟨5, _⟩ => ⟨S_, .f32⟩
  | .hbm, ⟨6, _⟩ => ⟨S_, .f32⟩
  | .hbm, ⟨7, _⟩ => ⟨S16384x1000, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S_, .f32⟩
  | .hbm, ⟨24, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  reducesTo_S16384x1000_S1000_d0 : S16384x1000.ReducesTo [0] S1000
  h_S_ : 0 < S_.numel
  bcast_S_S1000 : S_.BroadcastsInDim S1000 (![] : Fin 0 → Fin S1000.rank)
  reducesTo_S1000_S_d0 : S1000.ReducesTo [0] S_

variable [Facts₀]

class Facts : Prop extends Facts₀ where

variable [Facts]
-- ==== Proof.HingeSpec.lean ====
/-
  The one-versus-rest hinge loss as a function of the two argument arrays, over the extended reals.

  An element's term is `max (1 - o * s) 0` with `s = 1` where the label is at least zero and `s = -1` elsewhere; it
  is never negative. A row's sum adds the terms of its 1000 classes, the total adds the 16384 rows, and the loss is the
  total divided by 16384. Two facts join the two programs to it. Dividing by 16384 is multiplying by the real 1/16384,
  and a product distributes over a sum of terms none of which is negative, at the infinities too: so a sum of quotients
  is the quotient of the sum, with no finiteness asked of the inputs. And a sum over the first 1024 * (n + 1) rows is
  the sum over the first 1024 * n rows plus the next 1024: the running total a tile at a time.
-/
import Idealize.ShloMosaic.PureOps.Ideal
import Idealize.ShloMosaic.PureOps.Ideal.Laws
import Idealize.ShloMosaic.Lib.ValueIdx

noncomputable section

open scoped BigOperators

namespace Cert.Hinge

open Idealize.ShloMosaic Idealize.ShloMosaic.ValueIdx

/-- The shape of both arguments. -/
abbrev SArg : Shape := ⟨2, ![16384, 1000]⟩

/-- One element's term: `max (1 - o * s) 0`, `s` the label's sign with zero counted as positive. -/
def term (o l : Ideal .f32) : Ideal .f32 :=
  FloatOps.maximumf
    (FloatOps.subf (FloatOps.ofBits .f32 0x3F800000#32)
      (FloatOps.mulf o
        (Scalar.select (FloatOps.cmpf .oge l (FloatOps.ofBits .f32 0x00000000#32))
          (FloatOps.ofBits .f32 0x3F800000#32) (FloatOps.ofBits .f32 0xBF800000#32))))
    (FloatOps.ofBits .f32 0x00000000#32)

/-- A term is a maximum with zero. -/
theorem term_nonneg (o l : Ideal .f32) : (0 : EReal) ≤ term o l := by
  show (0 : EReal) ≤ max _ (Ideal.ofBits .f32 0x00000000#32)
  rw [Ideal.ofBits_zero_f32]
  exact le_max_right _ _

/-- The pattern of the batch size denotes the real 16384. -/
theorem ofBits_bsz : Ideal.ofBits .f32 0x46800000#32 = ((16384 : ℝ) : EReal) := by
  simp [Ideal.ofBits, Ideal.ieee, -EReal.coe_mul]; norm_num

/-- Row `b`'s sum over the classes. -/
def rowSum (o l : SArg.Idx → Ideal .f32) (b : Fin 16384) : EReal :=
  ∑ c : Fin 1000, term (o (ix2 b c)) (l (ix2 b c))

theorem rowSum_nonneg (o l : SArg.Idx → Ideal .f32) (b : Fin 16384) : 0 ≤ rowSum o l b :=
  Finset.sum_nonneg fun c _ => term_nonneg _ _

/-- The same by the row's number, zero past the last row. -/
def rowN (o l : SArg.Idx → Ideal .f32) (b : ℕ) : EReal :=
  if h : b < 16384 then rowSum o l ⟨b, h⟩ else 0

theorem rowN_of_lt (o l : SArg.Idx → Ideal .f32) (b : ℕ) (h : b < 16384) : rowN o l b = rowSum o l ⟨b, h⟩ :=
  dif_pos h

/-- The sum over all rows and classes. -/
def total (o l : SArg.Idx → Ideal .f32) : EReal := ∑ b : Fin 16384, rowSum o l b

/-- The loss: the total over the batch size. -/
def loss (o l : SArg.Idx → Ideal .f32) : EReal := Ideal.div (total o l) (Ideal.ofBits .f32 0x46800000#32)

/-- The total as a sum over row numbers. -/
theorem total_eq_range (o l : SArg.Idx → Ideal .f32) : total o l = ∑ b ∈ Finset.range 16384, rowN o l b := by
  rw [Finset.sum_range]
  exact Finset.sum_congr rfl fun b _ => (rowN_of_lt o l b.val b.isLt).symm

/-- A sum of quotients by the batch size, of terms none negative, is the quotient of the sum. -/
theorem sum_div_bsz {ι : Type*} (s : Finset ι) (x : ι → EReal) (hx : ∀ i, 0 ≤ x i) :
    ∑ i ∈ s, Ideal.div (x i) (Ideal.ofBits .f32 0x46800000#32)
      = Ideal.div (∑ i ∈ s, x i) (Ideal.ofBits .f32 0x46800000#32) := by
  classical
  rw [ofBits_bsz]
  simp only [Ideal.div_coe (by norm_num : (16384 : ℝ) ≠ 0)]
  induction s using Finset.induction_on with
  | empty => simp
  | insert a s ha ih =>
    rw [Finset.sum_insert ha, Finset.sum_insert ha, ih,
      EReal.right_distrib_of_nonneg (hx a) (Finset.sum_nonneg fun i _ => hx i)]

/-- The first tile's rows. -/
theorem prefix_one {M : Type*} [AddCommMonoid M] (g : ℕ → M) :
    ∑ b ∈ Finset.range (1024 * (0 + 1)), g b = ∑ r : Fin 1024, g (1024 * 0 + r.val) := by
  rw [← Finset.sum_range (fun r => g (1024 * 0 + r))]
  exact Finset.sum_congr rfl fun r _ => by rw [Nat.mul_zero, Nat.zero_add]

/-- One more tile: the rows before it, then its 1024. -/
theorem prefix_succ {M : Type*} [AddCommMonoid M] (g : ℕ → M) (n : ℕ) :
    ∑ b ∈ Finset.range (1024 * (n + 1 + 1)), g b
      = ∑ b ∈ Finset.range (1024 * (n + 1)), g b + ∑ r : Fin 1024, g (1024 * (n + 1) + r.val) := by
  rw [show 1024 * (n + 1 + 1) = 1024 * (n + 1) + 1024 by ring, Finset.sum_range_add,
    ← Finset.sum_range (fun r => g (1024 * (n + 1) + r))]

end Cert.Hinge

end
-- ==== Proof.RefValue.lean ====
/-
  The reference at the ideal values is the loss of the specification.

  Read one operation at a time, the reference's result is zero plus the sum over the classes `c` of the quotients by
  16384 of zero plus the sum over the rows `k` of the term at (k, c). Each inner sum is a sum of terms that are never
  negative, so the sum of quotients is the quotient of the double sum; exchanging the two sums gives the rows outside
  and the classes inside, which is the specification's total.
-/
import proofs.«137114_j64244120813576_1_alg».proof.Proof.Gen.ReferenceIdeal.Run
import proofs.«137114_j64244120813576_1_alg».proof.Proof.Gen.ReferenceIdeal.Read
import proofs.«137114_j64244120813576_1_alg».proof.Proof.HingeSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hinge

/-- A rank-one index set is its coordinate's range, -/
def idxEquiv1 {n : ℕ} : (⟨1, ![n]⟩ : Shape).Idx ≃ Fin n where
  toFun i := i 0
  invFun a := ix1 a
  left_inv i := (eq_ix1 i).symm
  right_inv _ := rfl

/-- so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The element the sum over the rows reads for class `c` at row `k` is (k, c). -/
theorem idx_rows (c : Fin 1000) (k : Fin 16384) : idx_main_v9 (ix1 c) k = ix2 k c :=
  funext fun a => by match a with | ⟨0, _⟩ => rfl | ⟨1, _⟩ => rfl

/-- The clamped margin at an element is the specification's term of the two arguments there. -/
theorem margin_apply (x0 x1 : SArg.Idx → Ideal .f32) (i : SArg.Idx) :
    val_main_v8 (F := Ideal) x0 x1 i = term (x0 i) (x1 i) := by
  rw [val_main_v8_apply, val_main_v7_apply, val_main_cst_3_apply, val_main_v6_apply, val_main_v5_apply,
    val_main_cst_2_apply, val_main_v4_apply, val_main_v3_apply, val_main_v2_apply, val_main_v1_apply,
    val_main_v0_apply, val_main_cst_apply, val_main_call0_v0_apply, val_main_cst_0_apply,
    val_main_call0_v1_apply, val_main_cst_1_apply]
  rfl

/-- The reference's result is the loss. -/
theorem result_eq (x0 x1 : SArg.Idx → Ideal .f32) (i : S_.Idx) :
    val_main_v12 (F := Ideal) x0 x1 i = loss x0 x1 := by
  rw [val_main_v12_apply]
  simp only [val_main_cst_6_apply, val_main_v11_apply, val_main_v10_apply, val_main_cst_5_apply,
    val_main_v9_apply, val_main_cst_4_apply, margin_apply, Ideal.ofBits_def, Ideal.hostDivf_def,
    Ideal.ofBits_zero_f32, zero_add]
  rw [sum_div_bsz _ _ (fun j => Finset.sum_nonneg fun k _ => term_nonneg _ _)]
  unfold loss total rowSum
  refine congrArg (fun t => Ideal.div t (Ideal.ofBits .f32 0x46800000#32)) ?_
  rw [sum_idx1, Finset.sum_comm]
  refine Finset.sum_congr rfl fun b _ => Finset.sum_congr rfl fun c _ => ?_
  rw [idx_rows]

end Cert.ReferenceIdeal.RefValue

end
-- ==== Proof.KernelPieces.lean ====
/-
  What one grid point leaves behind, as values.

  At every point the body adds to the carried one-element accumulator the sum of the point's tile: the update is one
  function of the labels block, the outputs block and the accumulator's contents before it. At the first point the
  accumulator is first reset to the zero block and the update reads that back; at the other points it reads what the
  point before left; at the last point the output block receives the accumulator as just updated.
-/
import proofs.«137114_j64244120813576_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin : (![0, 0] : Fin 2 → Nat) = fun _ => 0 := funext fun a => by fin_cases a <;> rfl

/-- The first point: the accumulator ends at the update of the zero block. -/
theorem scratch_first (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1024x1000 .f32) :
    sout0_A_0 c i a1 h1 a2 h2 a3 h3 a4 h4 hc0 hc1 x0 x1 = k0_pay2 x1 x0 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S1024x1000) origin]

/-- A middle point: the accumulator ends at the update of what the point before left. -/
theorem scratch_middle (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1024x1000 .f32) (xs : Vec F S1x1 .f32) :
    sout0_B_0 c i a1 h1 a2 h2 a3 h3 a4 h4 hc0 hc1 x0 x1 xs = k0_pay2 x1 x0 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero origin]
  simp only [View.readAt_eq_ld, h1.read_unread, h2.read_unread, h4.read_unread,
    View.ld_unit_zero (S := S1024x1000) origin, View.ld_unit_zero (S := S1x1) origin]

/-- The last point: the accumulator likewise, -/
theorem scratch_last (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1024x1000 .f32) (xs : Vec F S1x1 .f32) :
    sout0_C_0 c i a1 h1 a2 h2 a3 h3 a4 h4 hc0 hc1 x0 x1 xs = k0_pay2 x1 x0 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero origin]
  simp only [View.readAt_eq_ld, h1.read_unread, h2.read_unread, h4.read_unread,
    View.ld_unit_zero (S := S1024x1000) origin, View.ld_unit_zero (S := S1x1) origin]

/-- and the output block receives the accumulator as the update left it. -/
theorem out_last (c : Dev nD) (i : grid0.Coords) (a1 : Memref sig .tc .vmem S1024x1000 .f32) (h1 : a1.IsWhole)
    (a2 : Memref sig .tc .vmem S1024x1000 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1024x1000 .f32) (xs : Vec F S1x1 .f32) :
    out0_C_2 c i a1 h1 a2 h2 a3 h3 a4 h4 hc0 hc1 x0 x1 xs = k0_pay2 x1 x0 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero origin, View.readCov_unit_zero (S := S1x1) _ origin]
  simp only [View.readAt_eq_ld, h1.read_unread, h2.read_unread, h4.read_unread,
    View.ld_unit_zero (S := S1024x1000) origin, View.ld_unit_zero (S := S1x1) origin]

end Cert.KernelIdeal.Pieces

end
-- ==== Proof.KernelTile.lean ====
/-
  The update at the ideal values: the carried value plus the sum of the tile's terms.

  The body sums the clamped margins of a 1024 × 1000 tile along the classes, views the 1024 row sums as a column, sums
  the column, and views the one number as a 1 × 1 block. The two views keep the row-major position, so at the block's
  one index the result is the sum over the tile's rows of the sum over the classes. The margins themselves are
  elementwise: at (r, c) the specification's term of the outputs block and the labels block there.
-/
import proofs.«137114_j64244120813576_1_alg».proof.Proof.Gen.KernelIdeal.Skeleton
import proofs.«137114_j64244120813576_1_alg».proof.Proof.HingeSpec
import Idealize.ShloMosaic.Lib.Pipeline.Value
import Idealize.ShloMosaic.PureOps.Ideal.Laws
import Idealize.ShloMosaic.Lib.ValueIdx

noncomputable section

open scoped BigOperators

namespace Cert.KernelIdeal.Tile

open Cert.KernelIdeal Cert.KernelIdeal.Gen
open Idealize.ShloMosaic Idealize.ShloMosaic.ValueIdx Cert.Hinge

/-- Summing a tile along the classes, then down the column of row sums, read at the 1 × 1 result's index: the double
    sum over rows and classes. -/
theorem sum_tile (w : FVec Ideal S1024x1000 .f32)
    (hr1 : S1024x1000.Reduces [1] S1024) (hs1 : S1024.ShapeCasts S1024x1)
    (hr0 : S1024x1.Reduces [0] S1) (hs0 : S1.ShapeCasts S1x1)
    (hφ : FKind.Formats .f32) (hacc : (0x00000000#32 : BitVec 32) = FKind.add.neutral .f32 hφ) (j : S1x1.Idx) :
    shapeCast S1x1 (multiReduction .add [0] S1
        (shapeCast S1024x1 (multiReduction .add [1] S1024 w 0x00000000#32 hr1 hφ hacc) hs1)
        0x00000000#32 hr0 hφ hacc) hs0 j
      = ∑ r : Fin 1024, ∑ c : Fin 1000, w (ix2 r c) := by
  have hj0 : (j 0).val < 1 := (j 0).isLt
  have hj1 : (j 1).val < 1 := (j 1).isLt
  rw [shapeCast_apply _ hs0 j (ix1 (0 : Fin 1)) (by
    rw [Shape.rowMajor_val_one, Shape.rowMajor_val_two]
    show (0 : ℕ) = (j 0).val * 1 + (j 1).val
    omega)]
  rw [Ideal.multiReduction_add_single]
  refine Finset.sum_congr rfl fun r _ => ?_
  rw [shapeCast_apply _ hs1 (hr0.lift (ix1 (0 : Fin 1)) r) (ix1 r) (by
    rw [Shape.rowMajor_val_one, Shape.rowMajor_val_two]
    have e0 : (hr0.lift (ix1 (0 : Fin 1)) r 0).val = r.val := rfl
    have e1 : (hr0.lift (ix1 (0 : Fin 1)) r 1).val = 0 := rfl
    show r.val = (hr0.lift (ix1 (0 : Fin 1)) r 0).val * 1 + (hr0.lift (ix1 (0 : Fin 1)) r 1).val
    rw [e0, e1]; omega)]
  rw [Ideal.multiReduction_add_single]
  refine Finset.sum_congr rfl fun c _ => ?_
  exact congrArg w (funext fun a => Fin.ext (by match a with | ⟨0, _⟩ => rfl | ⟨1, _⟩ => rfl))

/-- The update at its one index: what was carried plus the sum over the tile of the terms of the outputs block `xo` and
    the labels block `xl`. -/
theorem update_apply (xl xo : Vec Ideal S1024x1000 .f32) (acc : Vec Ideal S1x1 .f32) (j : S1x1.Idx) :
    k0_pay2 (F := Ideal) xl xo acc j
      = acc j + ∑ r : Fin 1024, ∑ c : Fin 1000, term (xo (ix2 r c)) (xl (ix2 r c)) := by
  unfold k0_pay2
  refine (congrFun (shapeCast_self _ _) j).trans ?_
  refine congrArg (acc j + ·) ?_
  exact sum_tile (fun i => term (xo i) (xl i)) _ _ _ _ _ _ j

/-- The zero block the first point resets the accumulator to is zero at its index. -/
theorem reset_apply (j : S1x1.Idx) : k0_pay1 (F := Ideal) j = 0 := by
  unfold k0_pay1
  refine (congrFun (shapeCast_self _ _) j).trans ?_
  exact Ideal.ofBits_zero_f32

end Cert.KernelIdeal.Tile

end
-- ==== Proof.KernelAcc.lean ====
/-
  The accumulator after each grid point is the sum of the rows seen so far.

  Point `t` stages rows 1024 * t to 1024 * t + 1023 of both arguments: an element (r, k) of a block is the element
  (1024 * t + r, k) of its array. So the tile's sum of terms is the sum of the next 1024 row sums. The first point
  resets the accumulator to zero before adding its tile and every later point adds its tile to what the point before
  left, so by induction on the point the accumulator after point `n` holds the sum of the first 1024 * (n + 1) row sums.
-/
import proofs.«137114_j64244120813576_1_alg».proof.Proof.KernelPieces
import proofs.«137114_j64244120813576_1_alg».proof.Proof.KernelTile

noncomputable section

open scoped BigOperators

namespace Cert.KernelIdeal.Acc

open Cert.KernelIdeal Cert.KernelIdeal.Gen
open Idealize.ShloMosaic Idealize.ShloMosaic.TcCoe Idealize.SL.Sem Idealize.ShloMosaic.ValueIdx Cert.Hinge

variable (m : (ℓ : Loc nD τ sig) → Buf (Elt Ideal) ℓ)

/-- The two argument arrays as the region finds them, and their blocks at a point, at their literal types. -/
abbrev outsArr (c : Dev nD) : Vec Ideal S16384x1000 .f32 := V m c main_arg0
abbrev labsArr (c : Dev nD) : Vec Ideal S16384x1000 .f32 := V m c main_arg1
abbrev outsBlk (c : Dev nD) (t : Fin cfg0.N) : Vec Ideal S1024x1000 .f32 := iblk m c 0 t
abbrev labsBlk (c : Dev nD) (t : Fin cfg0.N) : Vec Ideal S1024x1000 .f32 := iblk m c 1 t

/-- Both inputs' block index at point `t` is (t, 0). -/
theorem block_index : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

theorem row_lt (t : Fin cfg0.N) (r : Fin 1024) : 1024 * t.val + r.val < 16384 := by
  have ht : t.val < 16 := lt_of_lt_of_eq t.isLt (show cfg0.N = 16 from N_0)
  have hr := r.isLt
  omega

/-- The outputs block at (r, k) is the outputs array at (1024 * t + r, k), -/
theorem outsBlk_apply (c : Dev nD) (t : Fin cfg0.N) (r : Fin 1024) (k : Fin 1000) :
    outsBlk m c t (ix2 r k) = outsArr m c (ix2 ⟨1024 * t.val + r.val, row_lt t r⟩ k) := by
  have hi := block_index t
  show iblk m c 0 t (ix2 r k) = _
  unfold iblk
  rw [View.read_apply]
  show V m c main_arg0 _ = V m c main_arg0 _
  refine congrArg (V m c main_arg0) (funext fun a => Fin.ext ?_)
  match a with
  | ⟨0, _⟩ => show win0_0.index t 0 * 1024 + 1 * r.val = 1024 * t.val + r.val; rw [hi.1]; omega
  | ⟨1, _⟩ => show win0_0.index t 1 * 1000 + 1 * k.val = k.val; rw [hi.2.1]; omega

/-- and the labels block likewise. -/
theorem labsBlk_apply (c : Dev nD) (t : Fin cfg0.N) (r : Fin 1024) (k : Fin 1000) :
    labsBlk m c t (ix2 r k) = labsArr m c (ix2 ⟨1024 * t.val + r.val, row_lt t r⟩ k) := by
  have hi := block_index t
  show iblk m c 1 t (ix2 r k) = _
  unfold iblk
  rw [View.read_apply]
  show V m c main_arg1 _ = V m c main_arg1 _
  refine congrArg (V m c main_arg1) (funext fun a => Fin.ext ?_)
  match a with
  | ⟨0, _⟩ => show win0_1.index t 0 * 1024 + 1 * r.val = 1024 * t.val + r.val; rw [hi.2.2.1]; omega
  | ⟨1, _⟩ => show win0_1.index t 1 * 1000 + 1 * k.val = k.val; rw [hi.2.2.2]; omega

/-- A tile's sum of terms is the sum of its 1024 rows' sums. -/
theorem tile_eq (c : Dev nD) (t : Fin cfg0.N) :
    ∑ r : Fin 1024, ∑ k : Fin 1000, term (outsBlk m c t (ix2 r k)) (labsBlk m c t (ix2 r k))
      = ∑ r : Fin 1024, rowN (outsArr m c) (labsArr m c) (1024 * t.val + r.val) := by
  refine Finset.sum_congr rfl fun r _ => ?_
  rw [rowN_of_lt _ _ _ (row_lt t r)]
  unfold rowSum
  refine Finset.sum_congr rfl fun k _ => ?_
  rw [outsBlk_apply, labsBlk_apply]

/-- After point `n` the carried accumulator holds the sum of the first 1024 * (n + 1) rows' sums. -/
theorem acc_eq (c : Dev nD) (j : S1x1.Idx) : ∀ (n : ℕ) (h : n < cfg0.N),
    (outsAt0 m c n h).2 j = ∑ b ∈ Finset.range (1024 * (n + 1)), rowN (outsArr m c) (labsArr m c) b
  | 0, h => by
    rw [outsAt0_A m c ⟨0, h⟩ rfl (by dsimp only; omega)]
    dsimp only
    refine (congrFun (Pieces.scratch_first (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) scM0_0 (Memref.isWhole_whole _)
      ((hcond0_0 ⟨0, h⟩).mpr rfl) (fun hh => absurd ((hcond0_1 ⟨0, h⟩).mp hh) (by dsimp only; omega))
      (outsBlk m c ⟨0, h⟩) (labsBlk m c ⟨0, h⟩)) j).trans ?_
    rw [Tile.update_apply, Tile.reset_apply, zero_add, tile_eq, prefix_one]
  | n + 1, h => by
    have hN : cfg0.N = 16 := N_0
    have hB : ¬(⟨n + 1, h⟩ : Fin cfg0.N).val % 16 = 0 := by dsimp only; omega
    have ih := acc_eq c j n (Nat.lt_of_succ_lt h)
    by_cases h1 : (⟨n + 1, h⟩ : Fin cfg0.N).val % 16 = 15
    · rw [outsAt0_C m c ⟨n + 1, h⟩ hB h1]
      dsimp only
      refine (congrFun (Pieces.scratch_last (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) scM0_0 (Memref.isWhole_whole _)
        (fun hh => hB ((hcond0_0 ⟨n + 1, h⟩).mp hh)) ((hcond0_1 ⟨n + 1, h⟩).mpr h1)
        (outsBlk m c ⟨n + 1, h⟩) (labsBlk m c ⟨n + 1, h⟩) (outsAt0 m c n (Nat.lt_of_succ_lt h)).2) j).trans ?_
      rw [Tile.update_apply, tile_eq, prefix_succ, ih]
    · rw [outsAt0_B m c ⟨n + 1, h⟩ hB h1]
      dsimp only
      refine (congrFun (Pieces.scratch_middle (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) scM0_0 (Memref.isWhole_whole _)
        (fun hh => hB ((hcond0_0 ⟨n + 1, h⟩).mp hh)) (fun hh => h1 ((hcond0_1 ⟨n + 1, h⟩).mp hh))
        (outsBlk m c ⟨n + 1, h⟩) (labsBlk m c ⟨n + 1, h⟩) (outsAt0 m c n (Nat.lt_of_succ_lt h)).2) j).trans ?_
      rw [Tile.update_apply, tile_eq, prefix_succ, ih]

/-- At the last point the output block receives the accumulator just updated: the sum of all the rows so far. -/
theorem out_eq (c : Dev nD) (j : S1x1.Idx) (n : ℕ) (h : n + 1 < cfg0.N) (h1 : (n + 1) % 16 = 15) :
    (outsAt0 m c (n + 1) h).1 j
      = ∑ b ∈ Finset.range (1024 * (n + 1 + 1)), rowN (outsArr m c) (labsArr m c) b := by
  have hN : cfg0.N = 16 := N_0
  have hB : ¬(⟨n + 1, h⟩ : Fin cfg0.N).val % 16 = 0 := by dsimp only; omega
  rw [outsAt0_C m c ⟨n + 1, h⟩ hB h1]
  dsimp only
  refine (congrFun (Pieces.out_last (F := Ideal) c (grid0.coords ⟨n + 1, h⟩) (ms0_0 ⟨n + 1, h⟩) (hs0_0 ⟨n + 1, h⟩)
    (ms0_1 ⟨n + 1, h⟩) (hs0_1 ⟨n + 1, h⟩) (ms0_2 ⟨n + 1, h⟩) (hs0_2 ⟨n + 1, h⟩) scM0_0 (Memref.isWhole_whole _)
    (fun hh => hB ((hcond0_0 ⟨n + 1, h⟩).mp hh)) ((hcond0_1 ⟨n + 1, h⟩).mpr h1)
    (outsBlk m c ⟨n + 1, h⟩) (labsBlk m c ⟨n + 1, h⟩) (outsAt0 m c n (Nat.lt_of_succ_lt h)).2) j).trans ?_
  rw [Tile.update_apply, tile_eq, prefix_succ, acc_eq m c j n (Nat.lt_of_succ_lt h)]

end Cert.KernelIdeal.Acc

end
-- ==== Proof.KernelLoss.lean ====
/-
  The kernel's result at the ideal values is the loss of the specification.

  The 1 × 1 result block is written back once, after the last grid point, when it holds the sum of all 16384 row sums:
  its one block is the whole result array, so the array ends holding the total at its one index. The host operations
  after the region view that array as a scalar and divide it by 16384.
-/
import proofs.«137114_j64244120813576_1_alg».proof.Proof.KernelAcc
import Idealize.ShloMosaic.Lib.StableHlo.Run

noncomputable section

open scoped BigOperators

namespace Cert.KernelIdeal.Loss

open Cert.KernelIdeal Cert.KernelIdeal.Gen Cert.KernelIdeal.Acc
open Idealize.ShloMosaic Idealize.ShloMosaic.TcCoe Idealize.SL.Sem Idealize.ShloMosaic.ValueIdx Cert.Hinge
open Idealize.ShloMosaic.Pipeline (Dat)

variable (m : (ℓ : Loc nD τ sig) → Buf (Elt Ideal) ℓ) (ρ : Dev nD → PrngReg)

/-- The result array's contents after the region: the total, at its one index. -/
abbrev totalBlk (c : Dev nD) : Buf (Elt Ideal) ((c : Thread nD τ).loc main_v0) :=
  fun _ => total (outsArr m c) (labsArr m c)

/-- After the last point the output block holds the total. -/
theorem last_out (c : Dev nD) : (outsAt0 m c t0_15.val t0_15.isLt).1 = totalBlk m c := by
  funext j
  show _ = total (outsArr m c) (labsArr m c)
  rw [total_eq_range]
  exact out_eq m c j 14 (by rw [show cfg0.N = 16 from N_0]; decide) (by decide)

/-- The one write-back, after the last point, writes the total block: the block at index (0, 0) of a 1 × 1 array is
    the array. -/
theorem flushed_eq (c : Dev nD) (t : Fin cfg0.N) (hf : (cfg0.win 2).flush t = true) :
    (dats m 0 c).flushed 2 t = ((cfg0.win 2).blk t).view.read (Elt Ideal) (totalBlk m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, last_out]
  have hoff : (fun a => win0_2.index t0_15 a * main_v0.ty.shape.size a) = fun _ => 0 :=
    funext fun a => by fin_cases a <;> decide
  exact (Memref.read_access_unit_zero (Elt Ideal) main_v0 hoff (fun a => by rw [congrFun hoff a]; simp) (totalBlk m c)).symm

/-- So the result array ends holding the total. -/
theorem final_out (c : Dev nD) : (dats m 0 c).arrAt 2 cfg0.N = totalBlk m c :=
  (dats m 0 c).arrAt_eq_of_cover 2 (totalBlk m c) (flushed_eq m c) fun i =>
    ⟨t0_15, (flush0_2 t0_15).mpr rfl, by
      show i ∈ ((View.whole main_v0).slice (win0_2.rect t0_15)).set
      rw [View.set_slice_whole, Rect.mem_set_unit]
      have h0 : (i 0 : Nat) < 1 := (i 0).isLt
      have h1 : (i 1 : Nat) < 1 := (i 1).isLt
      have e : ∀ a, win0_2.index t0_15 a * win0_2.size a = 0 ∧ win0_2.xsize (grid0.coords t0_15) a = 1 := by decide +kernel
      intro a
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [(e 0).1, (e 0).2]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [(e 1).1, (e 1).2]; omega⟩

/-- The scalar result is no array of the pipeline and is not scoped: the frame run states its final contents. -/
theorem result_rest : main_v2 ∈ Pipeline.restRefs sig spec0 :=
  Pipeline.mem_restRefs_of main_v2 rfl (by decide)

/-- The host operations after the region, applied to the result array: the loss. -/
theorem tail_eq (c : Dev nD) :
    Pipeline.afterTail₀ cfgs (dats m) 0 (V0 m) [hostOps1] c main_v2
      = fun _ => loss (outsArr m c) (labsArr m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N)
      (Proc.devRef .tc main_v0) = totalBlk m c from
    (Pipeline.withArrays_arr spec0 launch0.win.arr_inj c _ _ 2).trans (final_out m c)]
  rfl

/-- The kernel's run, read: the scalar result at the loss of the two argument arrays, the arguments unchanged. -/
theorem run : θ_run defs (onTc (τ := τ) (main (F := Ideal))) ⟨m, fun _ => 0, ρ⟩ fun r => ∀ c : Dev nD,
      r.2.mem ((c.tc : Thread nD τ).loc main_v2) = (fun _ => loss (outsArr m c) (labsArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.lean ====
/-
  One-versus-rest hinge loss over f32[16384, 1000] outputs and labels: a kernel that streams sixteen tiles of 1024 rows,
  adds each tile's clamped margins into a one-element accumulator and divides the total by 16384 on the host, against
  the reference that averages the clamped margins over the batch class by class and sums the class means.

  Over the extended reals both are the specification's loss (Proof/HingeSpec.lean): the sum over all rows and classes of
  `max (1 - o * s) 0`, `s` the label's sign with zero counted positive, divided by 16384. The kernel's accumulator
  after each grid point is the sum of the rows seen so far (Proof/KernelAcc.lean, by induction on the point, from what
  each point leaves: Proof/KernelPieces.lean, Proof/KernelTile.lean); the last point writes it back and the host divides
  (Proof/KernelLoss.lean). The reference's sum of per-class quotients is the quotient of the double sum because no term
  is negative (Proof/RefValue.lean). Nothing asks the inputs to be finite. The three frames are the programs' runs with
  the results dropped, and the kernel at the ideal values is the kernel's own text read there, so there is nothing to
  preserve.
-/
import proofs.«137114_j64244120813576_1_alg».proof.Defs
import proofs.«137114_j64244120813576_1_alg».proof.Proof.Gen.Kernel
import proofs.«137114_j64244120813576_1_alg».proof.Proof.Gen.Kernel.Skeleton
import proofs.«137114_j64244120813576_1_alg».proof.Proof.Gen.Kernel.Launch
import proofs.«137114_j64244120813576_1_alg».proof.Proof.Gen.Kernel.Points
import proofs.«137114_j64244120813576_1_alg».proof.Proof.Gen.Kernel.Frame
import proofs.«137114_j64244120813576_1_alg».proof.Proof.Gen.KernelIdeal
import proofs.«137114_j64244120813576_1_alg».proof.Proof.Gen.KernelIdeal.Skeleton
import proofs.«137114_j64244120813576_1_alg».proof.Proof.Gen.KernelIdeal.Launch
import proofs.«137114_j64244120813576_1_alg».proof.Proof.Gen.KernelIdeal.Points
import proofs.«137114_j64244120813576_1_alg».proof.Proof.Gen.KernelIdeal.Frame
import proofs.«137114_j64244120813576_1_alg».proof.Proof.Gen.ReferenceIdeal
import proofs.«137114_j64244120813576_1_alg».proof.Proof.Gen.ReferenceIdeal.Run
import proofs.«137114_j64244120813576_1_alg».proof.Proof.Gen.ReferenceIdeal.Read
import proofs.«137114_j64244120813576_1_alg».proof.Proof.Gen.Pre_finite_inputs
import proofs.«137114_j64244120813576_1_alg».proof.Proof.RefValue
import proofs.«137114_j64244120813576_1_alg».proof.Proof.KernelLoss
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel :=
  fun m ρ _ => Cert.Kernel.Gen.frame m ρ

/-- So does the kernel at the ideal values. -/
theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the loss of those arguments. -/
theorem algebraic : Cert.algebraic_KernelIdeal_ReferenceIdeal := by
  intro m ρ m' ρ' _ hagree
  refine ⟨fun c => fun _ => Cert.Hinge.loss (Cert.KernelIdeal.Acc.outsArr m c) (Cert.KernelIdeal.Acc.labsArr m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  funext i
  rw [Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
